-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S2400000 : S_.BroadcastsInDim S2400000 (![] : Fin 0 → Fin S2400000.rank)
  reducesTo_S2400000_S_d0 : S2400000.ReducesTo [0] S_

variable [Facts]

def fn_part1 {F : FTy → Type} [FloatOps F] (main_arg4 : FVec F S2400000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2400000 .f32 := Host.absf main_arg4
  let main_cst_6 : FVec F S_ .f32 := constant S_ .f32 0x7F800000#32
  let main_v20 : FVec F S2400000 .f32 := broadcastInDim S2400000 ![] bcast_S_S2400000 main_cst_6
  let main_v21 : IVec S2400000 1 := cmpf .olt main_v19 main_v20
  let main_c_7 : IVec S_ 1 := constantI S_ 1 1#1
  let main_v22 : IVec S_ 1 := (fun x v => Host.reduce IntOp.andi x v reducesTo_S2400000_S_d0 h_S_) main_v21 main_c_7
  let main_v23 : IVec S_ 1 := andi main_v18 main_v22
  main_v23

def fn {F : FTy → Type} [FloatOps F] (main_arg0 : FVec F S100000x64 .f32) (main_arg1 : FVec F S50000x64 .f32) (main_arg2 : FVec F S64x64 .f32) (main_arg3 : FVec F S64x64 .f32) (main_arg4 : FVec F S2400000 .f32) (main_arg5 : IVec S2400000 32) (main_arg6 : IVec S2400000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩
abbrev S10000x64 : Shape := ⟨2, ![10000, 64]⟩
abbrev S5000x64 : Shape := ⟨2, ![5000, 64]⟩

abbrev nBuf : Space → Nat
  | .hbm => 47
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S2400000, .f32⟩
  | .hbm, ⟨5, _⟩ => ⟨S2400000, .i32⟩
  | .hbm, ⟨6, _⟩ => ⟨S2400000, .i32⟩
  | .hbm, ⟨7, _⟩ => ⟨S150000x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S64x64, .f32⟩
  | .hbm, ⟨25, _⟩ => ⟨S64x64, .f32⟩
  | .hbm, ⟨26, _⟩ => ⟨S150000x64, .f32⟩
  | .hbm, ⟨27, _⟩ => ⟨S150000x64, .f32⟩
  | .hbm, ⟨28, _⟩ => ⟨S2400000x1, .f32⟩
  | .hbm, ⟨29, _⟩ => ⟨S_, .i32⟩
  | .hbm, ⟨30, _⟩ => ⟨S2400000, .i32⟩
  | .hbm, ⟨31, _⟩ => ⟨S2400000, .i1⟩
  | .hbm, ⟨32, _⟩ => ⟨S_, .i32⟩
  | .hbm, ⟨33, _⟩ => ⟨S2400000, .i32⟩
  | .hbm, ⟨34, _⟩ => ⟨S2400000, .i32⟩
  | .hbm, ⟨35, _⟩ => ⟨S2400000, .i32⟩
  | .hbm, ⟨36, _⟩ => ⟨S2400000x1, .i32⟩
  | .hbm, ⟨37, _⟩ => ⟨S2400000x64, .f32⟩
  | .hbm, ⟨38, _⟩ => ⟨S2400000x64, .f32⟩
  | .hbm, ⟨39, _⟩ => ⟨S2400000x64, .f32⟩
  | .hbm, ⟨40, _⟩ => ⟨S_, .f32⟩
  | .hbm, ⟨41, _⟩ => ⟨S150000x64, .f32⟩
  | .hbm, ⟨42, _⟩ => ⟨S2400000x1, .i32⟩
  | .hbm, ⟨43, _⟩ => ⟨S150000x64, .f32⟩
  | .hbm, ⟨44, _⟩ => ⟨S150000x64, .f32⟩
  | .hbm, ⟨45, _⟩ => ⟨S100000x64, .f32⟩
  | .hbm, ⟨46, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S10000x64_S64x64_S10000x64_1_0_0_1_n_n_wf : DotDims.WF S10000x64 S64x64 S10000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S150000x64.size a
  hwx0_0 : ∀ i : grid0.Coords, EltTy.bits .f32 = 32 ∨ (Rect.block (s := S150000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S150000x64.size a
  hwx0_2 : ∀ i : grid0.Coords, EltTy.bits .f32 = 32 ∨ (Rect.block (s := S150000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S150000x64.size a
  hwx0_3 : ∀ i : grid0.Coords, EltTy.bits .f32 = 32 ∨ (Rect.block (s := S150000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S150000x64.size a
  hwx1_2 : ∀ i : grid1.Coords, EltTy.bits .f32 = 32 ∨ (Rect.block (s := S150000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S150000x64.size a
  hwx1_3 : ∀ i : grid1.Coords, EltTy.bits .f32 = 32 ∨ (Rect.block (s := S150000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S150000x64.size a
  hwx1_5 : ∀ i : grid1.Coords, EltTy.bits .f32 = 32 ∨ (Rect.block (s := S150000x64) S5000x64.size (cc1_transform_5 i) (hinb1_5 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16_0) S10000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S64x64 : Shape := ⟨2, ![64, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩

abbrev nBuf : Space → Nat
  | .hbm => 59
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S64x64, .f32⟩
  | .hbm, ⟨3, _⟩ => ⟨S64x64, .f32⟩
  | .hbm, ⟨4, _⟩ => ⟨S2400000, .f32⟩
  | .hbm, ⟨5, _⟩ => ⟨S2400000, .i32⟩
  | .hbm, ⟨6, _⟩ => ⟨S2400000, .i32⟩
  | .hbm, ⟨7, _⟩ => ⟨S150000x64, .f32⟩
  | .hbm, ⟨8, _⟩ => ⟨S2400000x1, .f32⟩
  | .hbm, ⟨9, _⟩ => ⟨S_, .i32⟩
  | .hbm, ⟨10, _⟩ => ⟨S2400000, .i32⟩
  | .hbm, ⟨11, _⟩ => ⟨S2400000, .i1⟩
  | .hbm, ⟨12, _⟩ => ⟨S_, .i32⟩
  | .hbm, ⟨13, _⟩ => ⟨S2400000, .i32⟩
  | .hbm, ⟨14, _⟩ => ⟨S2400000, .i32⟩
  | .hbm, ⟨15, _⟩ => ⟨S2400000, .i32⟩
  | .hbm, ⟨16, _⟩ => ⟨S2400000x1, .i32⟩
  | .hbm, ⟨17, _⟩ => ⟨S2400000x64, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S64x64, .f32⟩
  | .hbm, ⟨25, _⟩ => ⟨S150000x64, .f32⟩
  | .hbm, ⟨26, _⟩ => ⟨S_, .f32⟩
  | .hbm, ⟨27, _⟩ => ⟨S150000x64, .f32⟩
  | .hbm, ⟨28, _⟩ => ⟨S150000x64, .i1⟩
  | .hbm, ⟨29, _⟩ => ⟨S_, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S2400000x1, .f32⟩
  | .hbm, ⟨34, _⟩ => ⟨S_, .i32⟩
  | .hbm, ⟨35, _⟩ => ⟨S2400000, .i32⟩
  | .hbm, ⟨36, _⟩ => ⟨S2400000, .i1⟩
  | .hbm, ⟨37, _⟩ => ⟨S_, .i32⟩
  | .hbm, ⟨38, _⟩ => ⟨S2400000, .i32⟩
  | .hbm, ⟨39, _⟩ => ⟨S2400000, .i32⟩
  | .hbm, ⟨40, _⟩ => ⟨S2400000, .i32⟩
  | .hbm, ⟨41, _⟩ => ⟨S2400000x1, .i32⟩
  | .hbm, ⟨42, _⟩ => ⟨S2400000x64, .f32⟩
  | .hbm, ⟨43, _⟩ => ⟨S2400000x64, .f32⟩
  | .hbm, ⟨44, _⟩ => ⟨S2400000x64, .f32⟩
  | .hbm, ⟨45, _⟩ => ⟨S_, .f32⟩
  | .hbm, ⟨46, _⟩ => ⟨S150000x64, .f32⟩
  | .hbm, ⟨47, _⟩ => ⟨S2400000x1, .i32⟩
  | .hbm, ⟨48, _⟩ => ⟨S150000x64, .f32⟩
  | .hbm, ⟨49, _⟩ => ⟨S64x64, .f32⟩
  | .hbm, ⟨50, _⟩ => ⟨S150000x64, .f32⟩
  | .hbm, ⟨51, _⟩ => ⟨S150000x64, .f32⟩
  | .hbm, ⟨52, _⟩ => ⟨S150000x64, .f32⟩
  | .hbm, ⟨53, _⟩ => ⟨S150000x64, .f32⟩
  | .hbm, ⟨54, _⟩ => ⟨S_, .f32⟩
  | .hbm, ⟨55, _⟩ => ⟨S150000x64, .f32⟩
  | .hbm, ⟨56, _⟩ => ⟨S150000x64, .f32⟩
  | .hbm, ⟨57, _⟩ => ⟨S100000x64, .f32⟩
  | .hbm, ⟨58, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  transposes_S64x64_S64x64_1_0 : S64x64.Transposes [1, 0] S64x64
  slices_S150000x64_S100000x64_0_0 : S150000x64.Slices ![0, 0] S100000x64
  slices_S150000x64_S50000x64_100000_0 : S150000x64.Slices ![100000, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«127960_j79242146611300_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.Spec.lean ====
/-
  The dense part of two rounds of neighbourhood propagation over 150000 nodes with 64 features, as whole-array
  functions on the extended reals.

  * `dense s w`: the aggregated features `s` (one row per node) times a 64×64 weight `w` that is already laid out
    with the contracted axis first: entry (p, q) is the sum over k of s (p, k) · w (k, q).
  * `leaky e`: the leaky rectifier, entry by entry: e where e ≥ 0, and the slope constant times e elsewhere.
  * `combine e0 e1 e2 e3`: the four embedding stages averaged, entry by entry, in the grouping
    ((e0 + e1) + e2) + e3, then times one quarter.

  The three constants are kept as the binary32 words both programs print; no property of their values is used.
-/
import Idealize.ShloMosaic.Lib.ValueIdx
import Idealize.ShloMosaic.PureOps.Ideal.Laws
import proofs.«127960_j79242146611300_1_alg».proof.Proof.LibMatmulPlain
import proofs.«127960_j79242146611300_1_alg».proof.Proof.LibDotPlain

noncomputable section

namespace Cert.Propagation

open Idealize.ShloMosaic Idealize.ShloMosaic.ValueIdx

/-- One row of 64 features per node. -/
abbrev Nodes : Shape := ⟨2, ![150000, 64]⟩
/-- A square weight on the feature axis. -/
abbrev Weights : Shape := ⟨2, ![64, 64]⟩

/-- Aggregated features times a weight whose first axis is the contracted one. -/
def dense (s : FVec Ideal Nodes .f32) (w : FVec Ideal Weights .f32) : FVec Ideal Nodes .f32 :=
  Host.dotGeneral (DotDims.plain 150000 64 64) none s w

/-- Entry (p, q) of `dense s w` is ∑ k, s (p, k) · w (k, q). -/
theorem dense_apply (s : FVec Ideal Nodes .f32) (w : FVec Ideal Weights .f32) (p : Fin 150000) (q : Fin 64) :
    dense s w (ix2 p q) = ∑ k : Fin 64, s (ix2 p k) * w (ix2 k q) :=
  DotPlain.dotGeneral_apply none s w p q

/-- The leaky rectifier: the entry itself where it is at least zero, the slope constant times the entry elsewhere. -/
def leaky (e : FVec Ideal Nodes .f32) : FVec Ideal Nodes .f32 := fun i =>
  Scalar.select (FloatOps.cmpf .oge (e i) (Ideal.ofBits .f32 0x00000000#32)) (e i) (Ideal.ofBits .f32 0x3E99999A#32 * e i)

/-- The four stages averaged: ((e0 + e1) + e2) + e3, times one quarter. -/
def combine (e0 e1 e2 e3 : FVec Ideal Nodes .f32) : FVec Ideal Nodes .f32 := fun i =>
  (((e0 i + e1 i) + e2 i) + e3 i) * Ideal.ofBits .f32 0x3E800000#32

end Cert.Propagation

end
-- ==== Proof.Region0.lean ====
/-
  The first dense layer, tile by tile. The region walks the 150000 node rows in 15 bands of 10000. At band t it reads
  rows [10000·t, 10000·t + 10000) of the aggregated features and the whole weight, and writes two bands of the same rows:
  the product (entry (p, q) of the band is the sum over k of features (10000·t + p, k) · weight (k, q)) and the leaky
  rectifier of that product. A change of float format is the identity on the extended reals, so the narrowing of both
  operands before the product does nothing. The bands tile the node axis, so after the region the two arrays hold
  `dense features weight` and its rectifier, whole.
-/
import proofs.«127960_j79242146611300_1_alg».proof.Proof.Gen.KernelIdeal.Frame
import proofs.«127960_j79242146611300_1_alg».proof.Proof.Spec
import Idealize.ShloMosaic.Lib.Pipeline.Value
import Idealize.ShloMosaic.Lib.ValueIdx

set_option maxRecDepth 16384

noncomputable section

namespace Cert.KernelIdeal.FirstLayer

open Cert.KernelIdeal Cert.KernelIdeal.Gen Cert.Propagation
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## One band, as pure arithmetic -/

/-- The band's product at entry (p, q): the sum over k of the feature band at (p, k) times the weight at (k, q). -/
theorem product_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  refine (MatmulPlain.matmul_zero_apply (M := 10000) (K := 64) (N := 64) none _ _ p q).trans ?_
  simp only [truncf_apply, shapeCast_self]

/-- If the feature band is rows [r, r + 10000) of `S` and the weight block is `W`, the band's product at a band index
    `j` is `dense S W` at the array index `i` with the same column and row `r` further down. -/
theorem band_product (S : FVec Ideal Nodes .f32) (W : FVec Ideal Weights .f32)
    (x0 : Vec Ideal S10000x64 .f32) (x1 : Vec Ideal S64x64 .f32) (r : ℕ)
    (h0 : ∀ (p : Fin 10000) (k : Fin 64) (i : Nodes.Idx), (i 0).val = r + p.val → (i 1).val = k.val → x0 (ix2 p k) = S i)
    (h1 : ∀ (k q : Fin 64), x1 (ix2 k q) = W (ix2 k q))
    (j : S10000x64.Idx) (i : Nodes.Idx) (hi0 : (i 0).val = r + (j 0).val) (hi1 : (i 1).val = (j 1).val) :
    k0_pay1 x0 x1 j = dense S W i := by
  obtain ⟨p, q, rfl⟩ : ∃ (p : Fin 10000) (q : Fin 64), j = ix2 p q := ⟨j 0, j 1, eq_ix2 j⟩
  obtain ⟨p', q', rfl⟩ : ∃ (p' : Fin 150000) (q' : Fin 64), i = ix2 p' q' := ⟨i 0, i 1, eq_ix2 i⟩
  have hq : q' = q := Fin.ext hi1
  subst hq
  rw [product_apply, dense_apply]
  exact Finset.sum_congr rfl fun k _ => by rw [h0 p k (ix2 p' k) hi0 rfl, h1]

/-- The same for the rectified band. -/
theorem band_leaky (S : FVec Ideal Nodes .f32) (W : FVec Ideal Weights .f32)
    (x0 : Vec Ideal S10000x64 .f32) (x1 : Vec Ideal S64x64 .f32) (r : ℕ)
    (h0 : ∀ (p : Fin 10000) (k : Fin 64) (i : Nodes.Idx), (i 0).val = r + p.val → (i 1).val = k.val → x0 (ix2 p k) = S i)
    (h1 : ∀ (k q : Fin 64), x1 (ix2 k q) = W (ix2 k q))
    (j : S10000x64.Idx) (i : Nodes.Idx) (hi0 : (i 0).val = r + (j 0).val) (hi1 : (i 1).val = (j 1).val) :
    k0_pay2 x0 x1 j = leaky (dense S W) i := by
  have e := band_product S W x0 x1 r h0 h1 j i hi0 hi1
  unfold k0_pay2
  show Scalar.select (FloatOps.cmpf .oge (k0_pay1 x0 x1 j) (Ideal.ofBits .f32 0x00000000#32)) (k0_pay1 x0 x1 j)
      (Ideal.ofBits .f32 0x3E99999A#32 * k0_pay1 x0 x1 j) = _
  rw [e]
  rfl

/-! ## The bands in the arrays -/

section Arrays

variable (V : (c : Dev nD) → (b : Ref sig .tc) → Buf (Elt Ideal) ((c : Thread nD τ).loc b))

/-- Band t: the feature window and both output windows sit at row block t, column block 0; the weight window at (0, 0). -/
theorem band_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at band t is rows [10000·t, 10000·t + 10000) of the features as the region finds them. -/
theorem features_band (c : Dev nD) (t : Fin cfg0.N) (p : Fin 10000) (k : Fin 64) (i : Nodes.Idx)
    (hi0 : (i 0).val = t.val * 10000 + p.val) (hi1 : (i 1).val = k.val) :
    iblk0 V c 0 t (ix2 p k) = V c main_v13 i := by
  obtain ⟨e00, e01, -⟩ := band_index t
  show V c main_v13 (((cfg0.win 0).blk t).view.emb (ix2 p k)) = V c main_v13 i
  refine congrArg (V c main_v13) ?_
  funext a; apply Fin.ext
  match a with
  | ⟨0, _⟩ => show win0_0.index t (0 : Fin 2) * 10000 + 1 * p.val = (i 0).val; omega
  | ⟨1, _⟩ => show win0_0.index t (1 : Fin 2) * 64 + 1 * k.val = (i 1).val; omega

/-- The weight block at every band is the whole weight. -/
theorem weight_block (c : Dev nD) (t : Fin cfg0.N) (k q : Fin 64) :
    iblk0 V c 1 t (ix2 k q) = V c main_v14 (ix2 k q) := by
  obtain ⟨-, -, e10, e11, -⟩ := band_index t
  show V c main_v14 (((cfg0.win 1).blk t).view.emb (ix2 k q)) = V c main_v14 (ix2 k q)
  refine congrArg (V c main_v14) ?_
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- What band t writes back to the product array is band t of `dense features weight`. -/
theorem product_flushed (c : Dev nD) (t : Fin cfg0.N) :
    (dat0 V c).flushed 2 t = ((cfg0.win 2).blk t).view.read (Elt Ideal) (dense (V c main_v13) (V c main_v14)) := by
  show (cfg0.win 2).cut (grid0.coords t) ((dat0 V c).after 2 t) = _
  rw [after0_2]
  unfold out0_2
  rw [View.canon_unit_zero zeros]
  simp only [View.ld_unit_zero (S := S10000x64) zeros, View.ld_unit_zero (S := S64x64) zeros]
  obtain ⟨-, -, -, -, e20, e21, -⟩ := band_index t
  funext j
  refine band_product (V c main_v13) (V c main_v14) (iblk0 V c 0 t) (iblk0 V c 1 t) (t.val * 10000)
    (fun p k i h0 h1 => features_band V c t p k i h0 h1) (fun k q => weight_block V c t k q)
    j (((cfg0.win 2).blk t).view.emb j) ?_ ?_
  · show win0_2.index t (0 : Fin 2) * 10000 + 1 * (j 0).val = t.val * 10000 + (j 0).val; omega
  · show win0_2.index t (1 : Fin 2) * 64 + 1 * (j 1).val = (j 1).val; omega

/-- What band t writes back to the rectified array is band t of the rectifier of `dense features weight`. -/
theorem leaky_flushed (c : Dev nD) (t : Fin cfg0.N) :
    (dat0 V c).flushed 3 t = ((cfg0.win 3).blk t).view.read (Elt Ideal) (leaky (dense (V c main_v13) (V c main_v14))) := by
  show (cfg0.win 3).cut (grid0.coords t) ((dat0 V c).after 3 t) = _
  rw [after0_3]
  unfold out0_3
  rw [View.canon_unit_zero zeros]
  simp only [View.ld_unit_zero (S := S10000x64) zeros, View.ld_unit_zero (S := S64x64) zeros]
  obtain ⟨-, -, -, -, -, -, e30, e31⟩ := band_index t
  funext j
  refine band_leaky (V c main_v13) (V c main_v14) (iblk0 V c 0 t) (iblk0 V c 1 t) (t.val * 10000)
    (fun p k i h0 h1 => features_band V c t p k i h0 h1) (fun k q => weight_block V c t k q)
    j (((cfg0.win 3).blk t).view.emb j) ?_ ?_
  · show win0_3.index t (0 : Fin 2) * 10000 + 1 * (j 0).val = t.val * 10000 + (j 0).val; omega
  · show win0_3.index t (1 : Fin 2) * 64 + 1 * (j 1).val = (j 1).val; omega

/-- An index of the product array is in band t iff each coordinate is in the band's range on its axis. -/
theorem mem_product_band (t : Fin cfg0.N) (i : S150000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16_0).slice (win0_2.rect t)).set ↔ _
  rw [View.set_slice_whole, Rect.mem_set_unit]
  exact Iff.rfl

/-- The same for the rectified array. -/
theorem mem_leaky_band (t : Fin cfg0.N) (i : S150000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16_1).slice (win0_3.rect t)).set ↔ _
  rw [View.set_slice_whole, Rect.mem_set_unit]
  exact Iff.rfl

/-- Row r lies in band r / 10000: the bands tile the node axis. -/
theorem product_cover (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  let t : Fin cfg0.N := ⟨(i 0).val / 10000, by show (i 0).val / 10000 < grid0.N; rw [N_0]; omega⟩
  obtain ⟨-, -, -, -, e20, e21, -⟩ := band_index t
  have ht : t.val = (i 0).val / 10000 := rfl
  refine ⟨t, flush0_2 t, ?_⟩
  rw [mem_product_band]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

theorem leaky_cover (i : S150000x64.Idx) :
    ∃ t : Fin cfg0.N, (cfg0.win 3).flush t = true ∧ i ∈ ((cfg0.win 3).blk t).view.set := by
  have hi0 : (i 0).val < 150000 := (i 0).isLt
  have hi1 : (i 1).val < 64 := (i 1).isLt
  let t : Fin cfg0.N := ⟨(i 0).val / 10000, by show (i 0).val / 10000 < grid0.N; rw [N_0]; omega⟩
  obtain ⟨-, -, -, -, -, -, e30, e31⟩ := band_index t
  have ht : t.val = (i 0).val / 10000 := rfl
  refine ⟨t, flush0_3 t, ?_⟩
  rw [mem_leaky_band]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region the product array holds `dense features weight`, whole. -/
theorem product_array (c : Dev nD) :
    (dat0 V c).arrAt 2 cfg0.N = dense (V c main_v13) (V c main_v14) :=
  (dat0 V c).arrAt_eq_of_cover 2 (dense (V c main_v13) (V c main_v14)) (fun t _ => product_flushed V c t) product_cover

/-- After the region the rectified array holds the rectifier of `dense features weight`, whole. -/
theorem leaky_array (c : Dev nD) :
    (dat0 V c).arrAt 3 cfg0.N = leaky (dense (V c main_v13) (V c main_v14)) :=
  (dat0 V c).arrAt_eq_of_cover 3 (leaky (dense (V c main_v13) (V c main_v14))) (fun t _ => leaky_flushed V c t) leaky_cover

end Arrays

end Cert.KernelIdeal.FirstLayer

end
-- ==== Proof.Region1.lean ====
/-
  The second dense layer and the average, tile by tile. The region walks the 150000 node rows in 30 bands of 5000. At
  band t it reads rows [5000·t, 5000·t + 5000) of the second aggregation, of the joined embeddings, of the first
  product and of its rectifier, and the whole second weight, and writes the same rows of one array: entry (p, q) of the
  band is ((e0 + e1) + e2) at row 5000·t + p plus the sum over k of aggregation (5000·t + p, k) · weight (k, q), all
  times one quarter. The narrowing of the product's operands is the identity on the extended reals. The bands tile the
  node axis, so after the region the array holds `combine e0 e1 e2 (dense aggregation weight)`, whole.
-/
import proofs.«127960_j79242146611300_1_alg».proof.Proof.Gen.KernelIdeal.Frame
import proofs.«127960_j79242146611300_1_alg».proof.Proof.Spec
import Idealize.ShloMosaic.Lib.Pipeline.Value
import Idealize.ShloMosaic.Lib.ValueIdx

set_option maxRecDepth 16384

noncomputable section

namespace Cert.KernelIdeal.SecondLayer

open Cert.KernelIdeal Cert.KernelIdeal.Gen Cert.Propagation
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## One band, as pure arithmetic -/

/-- The band's payload at entry (p, q): the three stage bands added left to right, plus the sum over k of the
    aggregation band at (p, k) times the weight at (k, q), times the quarter constant. -/
theorem average_apply (x0 : Vec Ideal S5000x64 .f32) (x1 : Vec Ideal S64x64 .f32)
    (x2 x3 x4 : Vec Ideal S5000x64 .f32) (p : Fin 5000) (q : Fin 64) :
    k1_pay1 x0 x1 x2 x3 x4 (ix2 p q)
      = (((x2 (ix2 p q) + x3 (ix2 p q)) + x4 (ix2 p q)) + ∑ k : Fin 64, x0 (ix2 p k) * x1 (ix2 k q))
          * Ideal.ofBits .f32 0x3E800000#32 := by
  have hprod := MatmulPlain.matmul_zero_apply (M := 5000) (K := 64) (N := 64) none
    (truncf .bf16 (shapeCast S5000x64 x0 shapeCasts_S5000x64_S5000x64) bitsLt_bf16_f32)
    (truncf .bf16 (shapeCast S64x64 x1 shapeCasts_S64x64_S64x64) bitsLt_bf16_f32) p q
  simp only [truncf_apply, shapeCast_self] at hprod
  unfold k1_pay1
  simp only [shapeCast_self]
  exact congrArg (fun z => (((x2 (ix2 p q) + x3 (ix2 p q)) + x4 (ix2 p q)) + z) * Ideal.ofBits .f32 0x3E800000#32) hprod

/-- If the five blocks are the band of rows [r, r + 5000) of `S`, `E0`, `E1`, `E2` and the whole weight `W`, the
    payload at a band index `j` is `combine E0 E1 E2 (dense S W)` at the array index `i` with the same column and
    row `r` further down. -/
theorem band_average (S E0 E1 E2 : FVec Ideal Nodes .f32) (W : FVec Ideal Weights .f32)
    (x0 : Vec Ideal S5000x64 .f32) (x1 : Vec Ideal S64x64 .f32) (x2 x3 x4 : Vec Ideal S5000x64 .f32) (r : ℕ)
    (h0 : ∀ (p : Fin 5000) (k : Fin 64) (i : Nodes.Idx), (i 0).val = r + p.val → (i 1).val = k.val → x0 (ix2 p k) = S i)
    (h1 : ∀ (k q : Fin 64), x1 (ix2 k q) = W (ix2 k q))
    (h2 : ∀ (p : Fin 5000) (k : Fin 64) (i : Nodes.Idx), (i 0).val = r + p.val → (i 1).val = k.val → x2 (ix2 p k) = E0 i)
    (h3 : ∀ (p : Fin 5000) (k : Fin 64) (i : Nodes.Idx), (i 0).val = r + p.val → (i 1).val = k.val → x3 (ix2 p k) = E1 i)
    (h4 : ∀ (p : Fin 5000) (k : Fin 64) (i : Nodes.Idx), (i 0).val = r + p.val → (i 1).val = k.val → x4 (ix2 p k) = E2 i)
    (j : S5000x64.Idx) (i : Nodes.Idx) (hi0 : (i 0).val = r + (j 0).val) (hi1 : (i 1).val = (j 1).val) :
    k1_pay1 x0 x1 x2 x3 x4 j = combine E0 E1 E2 (dense S W) i := by
  obtain ⟨p, q, rfl⟩ : ∃ (p : Fin 5000) (q : Fin 64), j = ix2 p q := ⟨j 0, j 1, eq_ix2 j⟩
  obtain ⟨p', q', rfl⟩ : ∃ (p' : Fin 150000) (q' : Fin 64), i = ix2 p' q' := ⟨i 0, i 1, eq_ix2 i⟩
  have hq : q' = q := Fin.ext hi1
  subst hq
  rw [average_apply]
  show _ = (((E0 (ix2 p' q') + E1 (ix2 p' q')) + E2 (ix2 p' q')) + dense S W (ix2 p' q')) * Ideal.ofBits .f32 0x3E800000#32
  rw [dense_apply, h2 p q' (ix2 p' q') hi0 rfl, h3 p q' (ix2 p' q') hi0 rfl, h4 p q' (ix2 p' q') hi0 rfl]
  refine congrArg (fun z => (((E0 (ix2 p' q') + E1 (ix2 p' q')) + E2 (ix2 p' q')) + z) * Ideal.ofBits .f32 0x3E800000#32) ?_
  exact Finset.sum_congr rfl fun k _ => by rw [h0 p k (ix2 p' k) hi0 rfl, h1]

/-! ## The bands in the arrays -/

section Arrays

variable (V : (c : Dev nD) → (b : Ref sig .tc) → Buf (Elt Ideal) ((c : Thread nD τ).loc b))

/-- Band t: the four row-banded input windows and the output window sit at row block t, column block 0; the weight
    window at (0, 0). -/
theorem band_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The aggregation block at band t is rows [5000·t, 5000·t + 5000) of the aggregation as the region finds it. -/
theorem aggregation_band (c : Dev nD) (t : Fin cfg1.N) (p : Fin 5000) (k : Fin 64) (i : Nodes.Idx)
    (hi0 : (i 0).val = t.val * 5000 + p.val) (hi1 : (i 1).val = k.val) :
    iblk1 V c 0 t (ix2 p k) = V c main_v29 i := by
  obtain ⟨e00, e01, -⟩ := band_index t
  show V c main_v29 (((cfg1.win 0).blk t).view.emb (ix2 p k)) = V c main_v29 i
  refine congrArg (V c main_v29) ?_
  funext a; apply Fin.ext
  match a with
  | ⟨0, _⟩ => show win1_0.index t (0 : Fin 2) * 5000 + 1 * p.val = (i 0).val; omega
  | ⟨1, _⟩ => show win1_0.index t (1 : Fin 2) * 64 + 1 * k.val = (i 1).val; omega

/-- The weight block at every band is the whole weight. -/
theorem weight_block (c : Dev nD) (t : Fin cfg1.N) (k q : Fin 64) :
    iblk1 V c 1 t (ix2 k q) = V c main_v15 (ix2 k q) := by
  obtain ⟨-, -, e10, e11, -⟩ := band_index t
  show V c main_v15 (((cfg1.win 1).blk t).view.emb (ix2 k q)) = V c main_v15 (ix2 k q)
  refine congrArg (V c main_v15) ?_
  funext a; apply Fin.ext
  match a with
  | ⟨0, _⟩ => show win1_1.index t (0 : Fin 2) * 64 + 1 * k.val = k.val; omega
  | ⟨1, _⟩ => show win1_1.index t (1 : Fin 2) * 64 + 1 * q.val = q.val; omega

/-- The joined embeddings' block at band t is the same rows of the joined embeddings. -/
theorem joined_band (c : Dev nD) (t : Fin cfg1.N) (p : Fin 5000) (k : Fin 64) (i : Nodes.Idx)
    (hi0 : (i 0).val = t.val * 5000 + p.val) (hi1 : (i 1).val = k.val) :
    iblk1 V c 2 t (ix2 p k) = V c main_v0 i := by
  obtain ⟨-, -, -, -, e20, e21, -⟩ := band_index t
  show V c main_v0 (((cfg1.win 2).blk t).view.emb (ix2 p k)) = V c main_v0 i
  refine congrArg (V c main_v0) ?_
  funext a; apply Fin.ext
  match a with
  | ⟨0, _⟩ => show win1_2.index t (0 : Fin 2) * 5000 + 1 * p.val = (i 0).val; omega
  | ⟨1, _⟩ => show win1_2.index t (1 : Fin 2) * 64 + 1 * k.val = (i 1).val; omega

/-- The first product's block at band t is the same rows of the first product. -/
theorem product_band (c : Dev nD) (t : Fin cfg1.N) (p : Fin 5000) (k : Fin 64) (i : Nodes.Idx)
    (hi0 : (i 0).val = t.val * 5000 + p.val) (hi1 : (i 1).val = k.val) :
    iblk1 V c 3 t (ix2 p k) = V c main_v16_0 i := by
  obtain ⟨-, -, -, -, -, -, e30, e31, -⟩ := band_index t
  show V c main_v16_0 (((cfg1.win 3).blk t).view.emb (ix2 p k)) = V c main_v16_0 i
  refine congrArg (V c main_v16_0) ?_
  funext a; apply Fin.ext
  match a with
  | ⟨0, _⟩ => show win1_3.index t (0 : Fin 2) * 5000 + 1 * p.val = (i 0).val; omega
  | ⟨1, _⟩ => show win1_3.index t (1 : Fin 2) * 64 + 1 * k.val = (i 1).val; omega

/-- The rectified product's block at band t is the same rows of the rectified product. -/
theorem leaky_band (c : Dev nD) (t : Fin cfg1.N) (p : Fin 5000) (k : Fin 64) (i : Nodes.Idx)
    (hi0 : (i 0).val = t.val * 5000 + p.val) (hi1 : (i 1).val = k.val) :
    iblk1 V c 4 t (ix2 p k) = V c main_v16_1 i := by
  obtain ⟨-, -, -, -, -, -, -, -, e40, e41, -⟩ := band_index t
  show V c main_v16_1 (((cfg1.win 4).blk t).view.emb (ix2 p k)) = V c main_v16_1 i
  refine congrArg (V c main_v16_1) ?_
  funext a; apply Fin.ext
  match a with
  | ⟨0, _⟩ => show win1_4.index t (0 : Fin 2) * 5000 + 1 * p.val = (i 0).val; omega
  | ⟨1, _⟩ => show win1_4.index t (1 : Fin 2) * 64 + 1 * k.val = (i 1).val; omega

/-- What band t writes back is band t of `combine e0 e1 e2 (dense aggregation weight)`. -/
theorem average_flushed (c : Dev nD) (t : Fin cfg1.N) :
    (dat1 V c).flushed 5 t = ((cfg1.win 5).blk t).view.read (Elt Ideal)
      (combine (V c main_v0) (V c main_v16_0) (V c main_v16_1) (dense (V c main_v29) (V c main_v15))) := by
  show (cfg1.win 5).cut (grid1.coords t) ((dat1 V c).after 5 t) = _
  rw [after1_5]
  unfold out1_5
  rw [View.canon_unit_zero zeros]
  simp only [View.ld_unit_zero (S := S5000x64) zeros, View.ld_unit_zero (S := S64x64) zeros]
  obtain ⟨-, -, -, -, -, -, -, -, -, -, e50, e51⟩ := band_index t
  funext j
  refine band_average (V c main_v29) (V c main_v0) (V c main_v16_0) (V c main_v16_1) (V c main_v15)
    (iblk1 V c 0 t) (iblk1 V c 1 t) (iblk1 V c 2 t) (iblk1 V c 3 t) (iblk1 V c 4 t) (t.val * 5000)
    (fun p k i h0 h1 => aggregation_band V c t p k i h0 h1) (fun k q => weight_block V c t k q)
    (fun p k i h0 h1 => joined_band V c t p k i h0 h1) (fun p k i h0 h1 => product_band V c t p k i h0 h1)
    (fun p k i h0 h1 => leaky_band V c t p k i h0 h1)
    j (((cfg1.win 5).blk t).view.emb j) ?_ ?_
  · show win1_5.index t (0 : Fin 2) * 5000 + 1 * (j 0).val = t.val * 5000 + (j 0).val; omega
  · show win1_5.index t (1 : Fin 2) * 64 + 1 * (j 1).val = (j 1).val; omega

/-- An index of the output array is in band t iff each coordinate is in the band's range on its axis. -/
theorem mem_average_band (t : Fin cfg1.N) (i : S150000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v30).slice (win1_5.rect t)).set ↔ _
  rw [View.set_slice_whole, Rect.mem_set_unit]
  exact Iff.rfl

/-- Row r lies in band r / 5000: the bands tile the node axis. -/
theorem average_cover (i : S150000x64.Idx) :
    ∃ t : Fin cfg1.N, (cfg1.win 5).flush t = true ∧ i ∈ ((cfg1.win 5).blk t).view.set := by
  have hi0 : (i 0).val < 150000 := (i 0).isLt
  have hi1 : (i 1).val < 64 := (i 1).isLt
  let t : Fin cfg1.N := ⟨(i 0).val / 5000, by show (i 0).val / 5000 < grid1.N; rw [N_1]; omega⟩
  obtain ⟨-, -, -, -, -, -, -, -, -, -, e50, e51⟩ := band_index t
  have ht : t.val = (i 0).val / 5000 := rfl
  refine ⟨t, flush1_5 t, ?_⟩
  rw [mem_average_band]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region the output array holds `combine e0 e1 e2 (dense aggregation weight)`, whole. -/
theorem average_array (c : Dev nD) :
    (dat1 V c).arrAt 5 cfg1.N
      = combine (V c main_v0) (V c main_v16_0) (V c main_v16_1) (dense (V c main_v29) (V c main_v15)) :=
  (dat1 V c).arrAt_eq_of_cover 5 _ (fun t _ => average_flushed V c t) average_cover

end Arrays

end Cert.KernelIdeal.SecondLayer

end
-- ==== Proof.RefSpec.lean ====
/-
  The reference, stage by stage, in the vocabulary of the propagation: its first matrix product is `dense` of its
  first aggregation and the transposed first weight; its rectified stage is `leaky` of that product; its second
  product is `dense` of the second aggregation and the transposed second weight; and the array it slices its two
  results from is `combine` of the joined embeddings, the product, its rectifier and the second product.
  The two aggregations are left as the reference states them: nothing here looks inside a gather or a scatter-add.
-/
import proofs.«127960_j79242146611300_1_alg».proof.Proof.Gen.ReferenceIdeal.Read
import proofs.«127960_j79242146611300_1_alg».proof.Proof.Spec

noncomputable section

namespace Cert.ReferenceIdeal.Stages

open Cert.ReferenceIdeal Cert.ReferenceIdeal.Gen Cert.ReferenceIdeal.Read Cert.Propagation
open Idealize.ShloMosaic Idealize.ShloMosaic.TcCoe Idealize.SL.Sem

variable (x0 : (⟨S100000x64, .f32⟩ : BufTy).Contents (Elt Ideal)) (x1 : (⟨S50000x64, .f32⟩ : BufTy).Contents (Elt Ideal))
  (x2 x3 : (⟨S64x64, .f32⟩ : BufTy).Contents (Elt Ideal)) (x4 : (⟨S2400000, .f32⟩ : BufTy).Contents (Elt Ideal))
  (x5 x6 : (⟨S2400000, .i32⟩ : BufTy).Contents (Elt Ideal))

/-- The first product is `dense` of the first aggregation and the transposed first weight. -/
theorem first_product :
    val_main_v15 (F := Ideal) x0 x1 x2 x4 x5 x6
      = dense (val_main_v13 (F := Ideal) x0 x1 x4 x5 x6) (val_main_v14 (F := Ideal) x2) := by
  unfold val_main_v15 dense
  rfl

/-- The rectified stage is `leaky` of the first product. -/
theorem first_leaky :
    val_main_v20 (F := Ideal) x0 x1 x2 x4 x5 x6 = leaky (val_main_v15 (F := Ideal) x0 x1 x2 x4 x5 x6) := by
  funext i
  rw [val_main_v20_apply, val_main_v17_apply, val_main_v19_apply, val_main_v16_apply, val_main_v18_apply,
    val_main_cst_1_apply, val_main_cst_2_apply]
  rfl

/-- The second product is `dense` of the second aggregation and the transposed second weight. -/
theorem second_product :
    val_main_v35 (F := Ideal) x0 x1 x2 x3 x4 x5 x6
      = dense (val_main_v33 (F := Ideal) x0 x1 x2 x4 x5 x6) (val_main_v34 (F := Ideal) x3) := by
  unfold val_main_v35 dense
  rfl

/-- The array the two results are cut from is `combine` of the four stages. -/
theorem combined :
    val_main_v40 (F := Ideal) x0 x1 x2 x3 x4 x5 x6
      = combine (val_main_v0 (F := Ideal) x0 x1) (val_main_v15 (F := Ideal) x0 x1 x2 x4 x5 x6)
          (val_main_v20 (F := Ideal) x0 x1 x2 x4 x5 x6) (val_main_v35 (F := Ideal) x0 x1 x2 x3 x4 x5 x6) := by
  funext i
  rw [val_main_v40_apply, val_main_v38_apply, val_main_v37_apply, val_main_v36_apply, val_main_v39_apply,
    val_main_cst_6_apply]
  rfl

end Cert.ReferenceIdeal.Stages

end
-- ==== Proof.KernelValue.lean ====
/-
  The kernel program's two results as functions of its arguments, read back along the run. The run's buffer contents
  change at five boundaries: after the host operations that join the embeddings, aggregate them over the edges and
  transpose the two weights; after the first region, whose two arrays hold the first product and its rectifier; after
  the host operations that aggregate the rectified product over the same edges; after the second region, whose array
  holds the averaged stages; and after the two cuts that hand back the user rows and the item rows.
  Both programs aggregate with the same gather, scaling and scatter-add over the same edge lists, so each aggregation
  is carried as the one function the reference names; it is applied to equal operands on both sides and never opened.
  What is proved here: each result of the kernel program is the reference's own stage function of the arguments.
-/
import proofs.«127960_j79242146611300_1_alg».proof.Proof.Gen.KernelIdeal.Frame
import proofs.«127960_j79242146611300_1_alg».proof.Proof.Region0
import proofs.«127960_j79242146611300_1_alg».proof.Proof.Region1
import proofs.«127960_j79242146611300_1_alg».proof.Proof.RefSpec
import Idealize.ShloMosaic.Lib.StableHlo.Run

set_option maxRecDepth 16384

noncomputable section

namespace Cert.KernelIdeal.Fold

open Cert.KernelIdeal Cert.KernelIdeal.Gen Cert.Propagation
open Idealize.ShloMosaic Idealize.ShloMosaic.TcCoe Idealize.SL.Sem Idealize.ShloMosaic.StableHlo
open Cert.ReferenceIdeal.Read (val_main_v0 val_main_v13 val_main_v14 val_main_v15 val_main_v20 val_main_v33 val_main_v34
  val_main_v35 val_main_v40 val_main_v41 val_main_v42)

variable (m : (ℓ : Loc nD τ sig) → Buf (Elt Ideal) ℓ) (ρ : Dev nD → PrngReg)

/-! ## The arguments as launched -/

abbrev users (c : Dev nD) : (⟨S100000x64, .f32⟩ : BufTy).Contents (Elt Ideal) := m ((c : Thread nD τ).loc main_arg0)
abbrev items (c : Dev nD) : (⟨S50000x64, .f32⟩ : BufTy).Contents (Elt Ideal) := m ((c : Thread nD τ).loc main_arg1)
abbrev weight0 (c : Dev nD) : (⟨S64x64, .f32⟩ : BufTy).Contents (Elt Ideal) := m ((c : Thread nD τ).loc main_arg2)
abbrev weight1 (c : Dev nD) : (⟨S64x64, .f32⟩ : BufTy).Contents (Elt Ideal) := m ((c : Thread nD τ).loc main_arg3)
abbrev edgeVals (c : Dev nD) : (⟨S2400000, .f32⟩ : BufTy).Contents (Elt Ideal) := m ((c : Thread nD τ).loc main_arg4)
abbrev edgeRows (c : Dev nD) : (⟨S2400000, .i32⟩ : BufTy).Contents (Elt Ideal) := m ((c : Thread nD τ).loc main_arg5)
abbrev edgeCols (c : Dev nD) : (⟨S2400000, .i32⟩ : BufTy).Contents (Elt Ideal) := m ((c : Thread nD τ).loc main_arg6)

variable (c : Dev nD)

/-! ## After the first host operations -/

/-- The joined embeddings. -/
theorem joined : W1 m ρ c (Proc.devRef .tc main_v0) = val_main_v0 (F := Ideal) (users m c) (items m c) := by
  show StableHlo.after hostOps0 (W0 m ρ c) (Proc.devRef .tc main_v0) = _
  after_results
  rfl

/-- The first aggregation: the joined embeddings gathered along the edges' source nodes, scaled by the edge values
    and added up at the edges' target nodes. -/
theorem first_aggregation :
    W1 m ρ c (Proc.devRef .tc main_v13)
      = val_main_v13 (F := Ideal) (users m c) (items m c) (edgeVals m c) (edgeRows m c) (edgeCols m c) := by
  show StableHlo.after hostOps0 (W0 m ρ c) (Proc.devRef .tc main_v13) = _
  after_results
  rfl

/-- The first weight, transposed. -/
theorem first_weight : W1 m ρ c (Proc.devRef .tc main_v14) = val_main_v14 (F := Ideal) (weight0 m c) := by
  show StableHlo.after hostOps0 (W0 m ρ c) (Proc.devRef .tc main_v14) = _
  after_results
  rfl

/-- The second weight, transposed. -/
theorem second_weight : W1 m ρ c (Proc.devRef .tc main_v15) = val_main_v34 (F := Ideal) (weight1 m c) := by
  show StableHlo.after hostOps0 (W0 m ρ c) (Proc.devRef .tc main_v15) = _
  after_results
  rfl

/-- The edge lists are still as launched. -/
theorem edgeVals_kept : W1 m ρ c (Proc.devRef .tc main_arg4) = edgeVals m c := by
  show StableHlo.after hostOps0 (W0 m ρ c) (Proc.devRef .tc main_arg4) = _
  after_results
theorem edgeRows_kept : W1 m ρ c (Proc.devRef .tc main_arg5) = edgeRows m c := by
  show StableHlo.after hostOps0 (W0 m ρ c) (Proc.devRef .tc main_arg5) = _
  after_results
theorem edgeCols_kept : W1 m ρ c (Proc.devRef .tc main_arg6) = edgeCols m c := by
  show StableHlo.after hostOps0 (W0 m ρ c) (Proc.devRef .tc main_arg6) = _
  after_results

/-! ## After the first region -/

/-- The first region's first array holds the reference's first product. -/
theorem first_product :
    W2 m ρ c (Proc.devRef .tc main_v16_0)
      = val_main_v15 (F := Ideal) (users m c) (items m c) (weight0 m c) (edgeVals m c) (edgeRows m c) (edgeCols m c) := by
  refine (W2_arr m ρ c 2).trans ((FirstLayer.product_array (V1 m ρ) c).trans ?_)
  show dense (W1 m ρ c (Proc.devRef .tc main_v13)) (W1 m ρ c (Proc.devRef .tc main_v14)) = _
  rw [first_aggregation, first_weight, Cert.ReferenceIdeal.Stages.first_product]

/-- The first region's second array holds the reference's rectified product. -/
theorem first_leaky :
    W2 m ρ c (Proc.devRef .tc main_v16_1)
      = val_main_v20 (F := Ideal) (users m c) (items m c) (weight0 m c) (edgeVals m c) (edgeRows m c) (edgeCols m c) := by
  refine (W2_arr m ρ c 3).trans ((FirstLayer.leaky_array (V1 m ρ) c).trans ?_)
  show leaky (dense (W1 m ρ c (Proc.devRef .tc main_v13)) (W1 m ρ c (Proc.devRef .tc main_v14))) = _
  rw [first_aggregation, first_weight, Cert.ReferenceIdeal.Stages.first_leaky, Cert.ReferenceIdeal.Stages.first_product]

/-! ## After the second host operations -/

/-- The second aggregation: the rectified product aggregated over the same edges. -/
theorem second_aggregation :
    W3 m ρ c (Proc.devRef .tc main_v29)
      = val_main_v33 (F := Ideal) (users m c) (items m c) (weight0 m c) (edgeVals m c) (edgeRows m c) (edgeCols m c) := by
  show StableHlo.after hostOps1 (W2 m ρ c) (Proc.devRef .tc main_v29) = _
  after_results
  rw [first_leaky, W2_of_ne m ρ c main_arg4 (by decide), W2_of_ne m ρ c main_arg5 (by decide),
    W2_of_ne m ρ c main_arg6 (by decide), edgeVals_kept, edgeRows_kept, edgeCols_kept]
  rfl

/-- The joined embeddings, both of the first region's arrays and the transposed second weight are still there. -/
theorem joined_kept : W3 m ρ c (Proc.devRef .tc main_v0) = val_main_v0 (F := Ideal) (users m c) (items m c) := by
  show StableHlo.after hostOps1 (W2 m ρ c) (Proc.devRef .tc main_v0) = _
  after_results
  rw [W2_of_ne m ρ c main_v0 (by decide), joined]
theorem first_product_kept :
    W3 m ρ c (Proc.devRef .tc main_v16_0)
      = val_main_v15 (F := Ideal) (users m c) (items m c) (weight0 m c) (edgeVals m c) (edgeRows m c) (edgeCols m c) := by
  show StableHlo.after hostOps1 (W2 m ρ c) (Proc.devRef .tc main_v16_0) = _
  after_results
  rw [first_product]
theorem first_leaky_kept :
    W3 m ρ c (Proc.devRef .tc main_v16_1)
      = val_main_v20 (F := Ideal) (users m c) (items m c) (weight0 m c) (edgeVals m c) (edgeRows m c) (edgeCols m c) := by
  show StableHlo.after hostOps1 (W2 m ρ c) (Proc.devRef .tc main_v16_1) = _
  after_results
  rw [first_leaky]
theorem second_weight_kept : W3 m ρ c (Proc.devRef .tc main_v15) = val_main_v34 (F := Ideal) (weight1 m c) := by
  show StableHlo.after hostOps1 (W2 m ρ c) (Proc.devRef .tc main_v15) = _
  after_results
  rw [W2_of_ne m ρ c main_v15 (by decide), second_weight]

/-! ## After the second region -/

/-- The second region's array holds the reference's averaged stages. -/
theorem averaged :
    W4 m ρ c (Proc.devRef .tc main_v30)
      = val_main_v40 (F := Ideal) (users m c) (items m c) (weight0 m c) (weight1 m c) (edgeVals m c) (edgeRows m c) (edgeCols m c) := by
  refine (W4_arr m ρ c 5).trans ((SecondLayer.average_array (V3 m ρ) c).trans ?_)
  show combine (W3 m ρ c (Proc.devRef .tc main_v0)) (W3 m ρ c (Proc.devRef .tc main_v16_0)) (W3 m ρ c (Proc.devRef .tc main_v16_1))
      (dense (W3 m ρ c (Proc.devRef .tc main_v29)) (W3 m ρ c (Proc.devRef .tc main_v15))) = _
  rw [joined_kept, first_product_kept, first_leaky_kept, second_aggregation, second_weight_kept,
    Cert.ReferenceIdeal.Stages.combined, Cert.ReferenceIdeal.Stages.second_product]

/-! ## The two results -/

/-- The user rows of the averaged stages. -/
theorem user_result :
    W5 m ρ c (Proc.devRef .tc main_v31)
      = val_main_v41 (F := Ideal) (users m c) (items m c) (weight0 m c) (weight1 m c) (edgeVals m c) (edgeRows m c) (edgeCols m c) := by
  show StableHlo.after hostOps2 (W4 m ρ c) (Proc.devRef .tc main_v31) = _
  after_results
  rw [averaged]
  rfl

/-- The item rows of the averaged stages. -/
theorem item_result :
    W5 m ρ c (Proc.devRef .tc main_v32)
      = val_main_v42 (F := Ideal) (users m c) (items m c) (weight0 m c) (weight1 m c) (edgeVals m c) (edgeRows m c) (edgeCols m c) := by
  show StableHlo.after hostOps2 (W4 m ρ c) (Proc.devRef .tc main_v32) = _
  after_results
  rw [averaged]
  rfl

end Cert.KernelIdeal.Fold

end
-- ==== Proof.lean ====
/-
  Two rounds of neighbourhood propagation over 150000 nodes with 64 features, then the average of the four embedding
  stages. With A the weighted adjacency given as edge lists (values, target rows, source columns) and e0 the user
  embeddings joined on top of the item embeddings:

      e1 = (A e0) W0ᵀ,   e2 = leaky(e1),   e3 = (A e2) W1ᵀ,   result = ((e0 + e1) + e2 + e3) · ¼,

  handed back as its first 100000 rows and its last 50000 rows. The reference computes exactly this with host
  operations. The kernel program computes A·(-) with the same host gather, scaling and scatter-add over the same edge
  lists, and the rest in two tiled regions: the first writes e1 and e2 in 15 bands of 10000 rows, the second writes
  the averaged array in 30 bands of 5000 rows; both narrow the product's operands to a shorter float format first.

  On the extended reals a change of float format is the identity, and a matrix product into a zero accumulator and the
  host's product are the same finite sum over the contracted index, so band by band the regions write the reference's
  own stages (Region0, Region1, RefSpec); the bands tile the rows, so the arrays agree whole; and the two aggregations
  are the same function applied to equal arrays (KernelValue). No algebraic law beyond this is needed: the sums have
  the same terms in the same grouping, so nothing depends on the inputs being finite. The idealized kernel program is
  the kernel program's own text read over the extended reals, so the conjunct relating the two asks nothing.
-/
import proofs.«127960_j79242146611300_1_alg».proof.Defs
import proofs.«127960_j79242146611300_1_alg».proof.Proof.Gen.Kernel
import proofs.«127960_j79242146611300_1_alg».proof.Proof.Gen.Kernel.Skeleton
import proofs.«127960_j79242146611300_1_alg».proof.Proof.Gen.Kernel.Launch
import proofs.«127960_j79242146611300_1_alg».proof.Proof.Gen.Kernel.Points
import proofs.«127960_j79242146611300_1_alg».proof.Proof.Gen.Kernel.Frame
import proofs.«127960_j79242146611300_1_alg».proof.Proof.Gen.KernelIdeal
import proofs.«127960_j79242146611300_1_alg».proof.Proof.Gen.KernelIdeal.Skeleton
import proofs.«127960_j79242146611300_1_alg».proof.Proof.Gen.KernelIdeal.Launch
import proofs.«127960_j79242146611300_1_alg».proof.Proof.Gen.KernelIdeal.Points
import proofs.«127960_j79242146611300_1_alg».proof.Proof.Gen.KernelIdeal.Frame
import proofs.«127960_j79242146611300_1_alg».proof.Proof.Gen.ReferenceIdeal
import proofs.«127960_j79242146611300_1_alg».proof.Proof.Gen.ReferenceIdeal.Run
import proofs.«127960_j79242146611300_1_alg».proof.Proof.Gen.ReferenceIdeal.Read
import proofs.«127960_j79242146611300_1_alg».proof.Proof.Gen.Pre_finite_inputs
import proofs.«127960_j79242146611300_1_alg».proof.Proof.KernelRun
import proofs.«127960_j79242146611300_1_alg».proof.Proof.KernelValue
import Idealize.ShloMosaic.Adequacy
import Idealize.ShloMosaic.Init

noncomputable section

namespace Cert.Proof

open Idealize.ShloMosaic Idealize.ShloMosaic.TcCoe Idealize.SL.Sem
open Cert.ReferenceIdeal.Read (val_main_v41 val_main_v42)
open Cert.KernelIdeal.Fold (users items weight0 weight1 edgeVals edgeRows edgeCols)

/-- The kernel program's run with its two results at the reference's stage functions of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v31)
          = val_main_v41 (F := Ideal) (users m c) (items m c) (weight0 m c) (weight1 m c) (edgeVals m c) (edgeRows m c) (edgeCols m c)
        ∧ r.2.mem ((c.tc : Thread Cert.KernelIdeal.nD Cert.KernelIdeal.τ).loc Cert.KernelIdeal.main_v32)
          = val_main_v42 (F := Ideal) (users m c) (items m c) (weight0 m c) (weight1 m c) (edgeVals m c) (edgeRows m c) (edgeCols m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run (Cert.KernelIdeal.defs (F := Ideal)) _ _).mono
    (fun r h c => ⟨(h c).1.trans (Cert.KernelIdeal.Fold.user_result m ρ c),
      (h c).2.1.trans (Cert.KernelIdeal.Fold.item_result m ρ c), (h c).2.2⟩)
    (Cert.KernelIdeal.Results.run_results (F := Ideal) m ρ)

/-- The word-level kernel program runs and keeps its arguments: the generated frame. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the same two results: the reference's
    stage functions of the arguments, which the kernel program's run reaches band by band and the reference's run by
    definition. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v41_eq, h0, h1, h2, h3, h4, h5, h6]
  · obtain ⟨h0, h1, h2, h3, h4, h5, h6⟩ := hagree c
    rw [Cert.ReferenceIdeal.Read.val_main_v42_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
